-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S300x64 : Shape := ⟨2, ![300, 64]⟩
abbrev S300 : Shape := ⟨1, ![300]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S300x64 : S_.BroadcastsInDim S300x64 (![] : Fin 0 → Fin S300x64.rank)
  reducesTo_S300x64_S_d0_1 : S300x64.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg5 : FVec F S300x64 .f32) (main_arg6 : FVec F S300 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S300x64 .f32 := Host.absf main_arg5
  let main_cst_6 : FVec F S_ .f32 := constant S_ .f32 0x7F800000#32
  let main_v20 : FVec F S300x64 .f32 := broadcastInDim S300x64 ![] bcast_S_S300x64 main_cst_6
  let main_v21 : IVec S300x64 1 := cmpf .olt main_v19 main_v20
  let main_c_7 : IVec S_ 1 := constantI S_ 1 1#1
  let main_v22 : IVec S_ 1 := (fun x v => Host.reduce IntOp.andi x v reducesTo_S300x64_S_d0_1 h_S_) main_v21 main_c_7
  let main_v23 : IVec S_ 1 := andi main_v18 main_v22
  let main_v24 : FVec F S300 .f32 := Host.absf main_arg6
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S300x64 .f32) (main_arg6 : FVec F S300 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S300x64 : Shape := ⟨2, ![300, 64]⟩
abbrev S300 : Shape := ⟨1, ![300]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S64x300 : Shape := ⟨2, ![64, 300]⟩
abbrev S100000x300 : Shape := ⟨2, ![100000, 300]⟩
abbrev S2000x128 : Shape := ⟨2, ![2000, 128]⟩
abbrev S2000x300 : Shape := ⟨2, ![2000, 300]⟩
abbrev S2000x64 : Shape := ⟨2, ![2000, 64]⟩
abbrev S1x64 : Shape := ⟨2, ![1, 64]⟩
abbrev S1x300 : Shape := ⟨2, ![1, 300]⟩
abbrev S300000x100 : Shape := ⟨2, ![300000, 100]⟩

abbrev nBuf : Space → Nat
  | .hbm => 41
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S300x64, .f32⟩
  | .hbm, ⟨6, _⟩ => ⟨S300, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x64, .f32⟩
  | .hbm, ⟨37, _⟩ => ⟨S128x64, .f32⟩
  | .hbm, ⟨38, _⟩ => ⟨S64x300, .f32⟩
  | .hbm, ⟨39, _⟩ => ⟨S100000x300, .f32⟩
  | .hbm, ⟨40, _⟩ => ⟨S300000x100, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S64, .f32⟩
  | .local _ .vmem, ⟨6, _⟩ => ⟨S128x64, .f32⟩
  | .local _ .vmem, ⟨7, _⟩ => ⟨S64x300, .f32⟩
  | .local _ .vmem, ⟨8, _⟩ => ⟨S300, .f32⟩
  | .local _ .vmem, ⟨9, _⟩ => ⟨S2000x300, .f32⟩
  | .local _ .vmem, ⟨10, _⟩ => ⟨S2000x300, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x300 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  transposes_S300x64_S64x300_1_0 : S300x64.Transposes [1, 0] S64x300
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x300_S64x300_0_0 : ∀ a, (![0, 0] : Fin 2 → Nat) a + S64x300.size a ≤ S64x300.size a
  h_S64x300 : 0 < S64x300.numel
  shapeCasts_S64x300_S64x300 : S64x300.ShapeCasts S64x300
  inb_S300_S300_0 : ∀ a, (![0] : Fin 1 → Nat) a + S300.size a ≤ S300.size a
  h_S300 : 0 < S300.numel
  shapeCasts_S300_S1x300 : S300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  shapeCasts_S100000x300_S300000x100 : S100000x300.ShapeCasts S300000x100
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  dot_S2000x64_S64x300_S2000x300_1_0_0_1_n_n_wf : DotDims.WF S2000x64 S64x300 S2000x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x300.size a ≤ S64x300.size a
  hwx0_5 : ∀ i : grid0.Coords, EltTy.bits .f32 = 32 ∨ (Rect.block (s := S64x300) S64x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S300.size a ≤ S300.size a
  hwx0_6 : ∀ i : grid0.Coords, EltTy.bits .f32 = 32 ∨ (Rect.block (s := S300) S300.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x300.size a ≤ S100000x300.size a
  hwx0_7 : ∀ i : grid0.Coords, EltTy.bits .f32 = 32 ∨ (Rect.block (s := S100000x300) S2000x300.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x300_S2000x300_1_0_0_1_n_n : DotDims S2000x64 S64x300 S2000x300 where
  lhsContracting := [1]
  rhsContracting := [0]
  lhsNonContracting := [0]
  rhsNonContracting := [1]
  lhsBatch := []
  rhsBatch := []
  wf := dot_S2000x64_S64x300_S2000x300_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S2000x300.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S300x64 : Shape := ⟨2, ![300, 64]⟩
abbrev S300 : Shape := ⟨1, ![300]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S100000x300 : Shape := ⟨2, ![100000, 300]⟩
abbrev S1x300 : Shape := ⟨2, ![1, 300]⟩
abbrev S300000x100 : Shape := ⟨2, ![300000, 100]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S300x64, .f32⟩
  | .hbm, ⟨6, _⟩ => ⟨S300, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S100000x300, .f32⟩
  | .hbm, ⟨46, _⟩ => ⟨S1x300, .f32⟩
  | .hbm, ⟨47, _⟩ => ⟨S100000x300, .f32⟩
  | .hbm, ⟨48, _⟩ => ⟨S100000x300, .f32⟩
  | .hbm, ⟨49, _⟩ => ⟨S300000x100, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  shapeCasts_S100000x300_S300000x100 : S100000x300.ShapeCasts S300000x100
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S64x128_S100000x64_1_1_0_0_n_n_wf : DotDims.WF S100000x128 S64x128 S100000x64 [1] [1] [0] [0] [] []
  dot_S100000x64_S300x64_S100000x300_1_1_0_0_n_n_wf : DotDims.WF S100000x64 S300x64 S100000x300 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S64x128_S100000x64_1_1_0_0_n_n : DotDims S100000x128 S64x128 S100000x64 where
  lhsContracting := [1]
  rhsContracting := [1]
  lhsNonContracting := [0]
  rhsNonContracting := [0]
  lhsBatch := []
  rhsBatch := []
  wf := dot_S100000x128_S64x128_S100000x64_1_1_0_0_n_n_wf
def dot_S100000x64_S300x64_S100000x300_1_1_0_0_n_n : DotDims S100000x64 S300x64 S100000x300 where
  lhsContracting := [1]
  rhsContracting := [1]
  lhsNonContracting := [0]
  rhsNonContracting := [0]
  lhsBatch := []
  rhsBatch := []
  wf := dot_S100000x64_S300x64_S100000x300_1_1_0_0_n_n_wf

class Facts : Prop extends Facts₀ where

variable [Facts]
-- ==== Proof.BlockValue.lean ====
/-
  One block of the dense stage, entry by entry, over the extended reals.

  A block holds 2000 rows.  For row `p` and output column `q` the body computes
      out[p, q] = Σ_k max( (Σ_f a[p, f]·wl[f, k] + Σ_f x[p, f]·wr[f, k]) + bl[k], 0 ) · wo[k, q] + bo[q],
  the two inner sums over the 128 input features, the outer one over the 64 hidden units.  The changes of float
  format around the three matrix products are the identity on extended reals, a shape cast to the same shape is the
  identity, and a matrix product into a zero accumulator is the plain sum of products.
-/
import proofs.«181882_j68917045231738_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The operand indices of the two matrix products, axis by axis -/

/-- Rows of the left factor follow the rows of the product (128 features contracted into 64 hidden units). -/
theorem lhs_feat_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
/-- Columns of the left factor are the contracted feature. -/
theorem lhs_feat_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
/-- Rows of the right factor are the contracted feature. -/
theorem rhs_feat_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
/-- Columns of the right factor follow the columns of the product. -/
theorem rhs_feat_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The same four facts for the output product (64 hidden units contracted into 300 columns). -/
theorem lhs_hid_0 (i : S2000x300.Idx) (q : dot_S2000x64_S64x300_S2000x300_1_0_0_1_n_n.contr.Idx) :
    (dot_S2000x64_S64x300_S2000x300_1_0_0_1_n_n.lhsIdx i q 0).val = (i 0).val := by
  unfold DotDims.lhsIdx
  rw [dif_neg (show ¬(0 : Fin S2000x64.rank) ∈ dot_S2000x64_S64x300_S2000x300_1_0_0_1_n_n.lhsBatch by decide), dif_pos (show (0 : Fin S2000x64.rank) ∈ dot_S2000x64_S64x300_S2000x300_1_0_0_1_n_n.lhsNonContracting by decide)]
  rfl
theorem lhs_hid_1 (i : S2000x300.Idx) (q : dot_S2000x64_S64x300_S2000x300_1_0_0_1_n_n.contr.Idx) :
    (dot_S2000x64_S64x300_S2000x300_1_0_0_1_n_n.lhsIdx i q 1).val = (q ⟨0, by decide⟩).val :=
  dot_S2000x64_S64x300_S2000x300_1_0_0_1_n_n.lhsIdx_val_of_single rfl i q
theorem rhs_hid_0 (i : S2000x300.Idx) (q : dot_S2000x64_S64x300_S2000x300_1_0_0_1_n_n.contr.Idx) :
    (dot_S2000x64_S64x300_S2000x300_1_0_0_1_n_n.rhsIdx i q 0).val = (q ⟨0, by decide⟩).val :=
  dot_S2000x64_S64x300_S2000x300_1_0_0_1_n_n.rhsIdx_val_of_single rfl i q
theorem rhs_hid_1 (i : S2000x300.Idx) (q : dot_S2000x64_S64x300_S2000x300_1_0_0_1_n_n.contr.Idx) :
    (dot_S2000x64_S64x300_S2000x300_1_0_0_1_n_n.rhsIdx i q 1).val = (i 1).val := by
  unfold DotDims.rhsIdx
  rw [dif_neg (show ¬(1 : Fin S64x300.rank) ∈ dot_S2000x64_S64x300_S2000x300_1_0_0_1_n_n.rhsBatch by decide), dif_pos (show (1 : Fin S64x300.rank) ∈ dot_S2000x64_S64x300_S2000x300_1_0_0_1_n_n.rhsNonContracting by decide)]
  rfl

/-! ## The two matrix products at an entry -/

/-- Rows times columns over the 128 features, into a zero accumulator: the sum of products. -/
theorem featProduct_apply (l : FVec Ideal S2000x128 .bf16) (r : FVec Ideal S128x64 .bf16) (p : Fin 2000) (k : Fin 64) :
    matmul dot_S2000x128_S128x64_S2000x64_1_0_0_1_n_n none l r (constant (F := Ideal) S2000x64 .f32 0x00000000#32) (ix2 p k)
      = ∑ f : Fin 128, l (ix2 p f) * r (ix2 f k) := by
  show FloatOps.matmul dot_S2000x128_S128x64_S2000x64_1_0_0_1_n_n none l r (constant (F := Ideal) S2000x64 .f32 0x00000000#32) (ix2 p k) = _
  rw [Ideal.matmul_constant_zero_apply, ← Equiv.sum_comp (contrEquiv1 dot_S2000x128_S128x64_S2000x64_1_0_0_1_n_n 128 rfl rfl).symm]
  refine Finset.sum_congr rfl fun f _ => ?_
  have hk := contrEquiv1_symm_val dot_S2000x128_S128x64_S2000x64_1_0_0_1_n_n 128 rfl rfl f
  have el : dot_S2000x128_S128x64_S2000x64_1_0_0_1_n_n.lhsIdx (ix2 p k) ((contrEquiv1 dot_S2000x128_S128x64_S2000x64_1_0_0_1_n_n 128 rfl rfl).symm f) = ix2 p f := funext fun a => Fin.ext (by
    match a with
    | ⟨0, _⟩ => exact lhs_feat_0 _ _
    | ⟨1, _⟩ => exact (lhs_feat_1 _ _).trans hk)
  have er : dot_S2000x128_S128x64_S2000x64_1_0_0_1_n_n.rhsIdx (ix2 p k) ((contrEquiv1 dot_S2000x128_S128x64_S2000x64_1_0_0_1_n_n 128 rfl rfl).symm f) = ix2 f k := funext fun a => Fin.ext (by
    match a with
    | ⟨0, _⟩ => exact (rhs_feat_0 _ _).trans hk
    | ⟨1, _⟩ => exact rhs_feat_1 _ _)
  rw [el, er]

/-- Rows times columns over the 64 hidden units, into a zero accumulator: the sum of products. -/
theorem hidProduct_apply (l : FVec Ideal S2000x64 .bf16) (r : FVec Ideal S64x300 .bf16) (p : Fin 2000) (q : Fin 300) :
    matmul dot_S2000x64_S64x300_S2000x300_1_0_0_1_n_n none l r (constant (F := Ideal) S2000x300 .f32 0x00000000#32) (ix2 p q)
      = ∑ k : Fin 64, l (ix2 p k) * r (ix2 k q) := by
  show FloatOps.matmul dot_S2000x64_S64x300_S2000x300_1_0_0_1_n_n none l r (constant (F := Ideal) S2000x300 .f32 0x00000000#32) (ix2 p q) = _
  rw [Ideal.matmul_constant_zero_apply, ← Equiv.sum_comp (contrEquiv1 dot_S2000x64_S64x300_S2000x300_1_0_0_1_n_n 64 rfl rfl).symm]
  refine Finset.sum_congr rfl fun k _ => ?_
  have hk := contrEquiv1_symm_val dot_S2000x64_S64x300_S2000x300_1_0_0_1_n_n 64 rfl rfl k
  have el : dot_S2000x64_S64x300_S2000x300_1_0_0_1_n_n.lhsIdx (ix2 p q) ((contrEquiv1 dot_S2000x64_S64x300_S2000x300_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S2000x64_S64x300_S2000x300_1_0_0_1_n_n.rhsIdx (ix2 p q) ((contrEquiv1 dot_S2000x64_S64x300_S2000x300_1_0_0_1_n_n 64 rfl rfl).symm k) = ix2 k q := funext fun a => Fin.ext (by
    match a with
    | ⟨0, _⟩ => exact (rhs_hid_0 _ _).trans hk
    | ⟨1, _⟩ => exact rhs_hid_1 _ _)
  rw [el, er]

/-! ## A bias row laid under every row of a block -/

/-- The 64 biases, given a leading unit axis and repeated down 2000 rows, read the bias of the column. -/
theorem hidBias_apply (b : Vec Ideal S64 .f32) (p : Fin 2000) (k : Fin 64) :
    broadcastTo S2000x64 (shapeCast S1x64 b shapeCasts_S64_S1x64) broadcasts_S1x64_S2000x64 (ix2 p k) = b (ix1 k) := by
  rw [broadcastTo_1b_ab_apply, shapeCast_a_1a_apply]

/-- The 300 output biases likewise. -/
theorem outBias_apply (b : Vec Ideal S300 .f32) (p : Fin 2000) (q : Fin 300) :
    broadcastTo S2000x300 (shapeCast S1x300 b shapeCasts_S300_S1x300) broadcasts_S1x300_S2000x300 (ix2 p q) = b (ix1 q) := by
  rw [broadcastTo_1b_ab_apply, shapeCast_a_1a_apply]

/-! ## The block -/

/-- The hidden activation of row `p`, unit `k`: the two feature sums and the bias, cut off below at zero. -/
def hid (a x : Vec Ideal S2000x128 .f32) (wl wr : Vec Ideal S128x64 .f32) (bl : Vec Ideal S64 .f32) (p : Fin 2000) (k : Fin 64) : EReal :=
  max (((∑ f : Fin 128, a (ix2 p f) * wl (ix2 f k)) + (∑ f : Fin 128, x (ix2 p f) * wr (ix2 f k))) + bl (ix1 k)) (Ideal.ofBits .f32 0x00000000#32)

/-- THE BLOCK'S ENTRY `(p, q)`: the hidden row against column `q` of the output weights, plus the output bias. -/
theorem block_apply (a x : Vec Ideal S2000x128 .f32) (wl wr : Vec Ideal S128x64 .f32) (bl : Vec Ideal S64 .f32)
    (wo : Vec Ideal S64x300 .f32) (bo : Vec Ideal S300 .f32) (p : Fin 2000) (q : Fin 300) :
    k0_pay1 (F := Ideal) a x wl wr bl wo bo (ix2 p q)
      = (∑ k : Fin 64, hid a x wl wr bl p k * wo (ix2 k q)) + bo (ix1 q) := by
  unfold k0_pay1
  simp only [shapeCast_self]
  rw [addf_apply, hidProduct_apply, outBias_apply]
  refine congrArg (· + bo (ix1 q)) (Finset.sum_congr rfl fun k _ => ?_)
  rw [truncf_apply, truncf_apply, maximumf_apply, addf_apply, addf_apply, featProduct_apply, featProduct_apply, hidBias_apply]
  rfl

end Cert.KernelIdeal.Block

end
-- ==== Proof.DenseArray.lean ====
/-
  The dense stage as ONE function of the whole arrays, and a block of 2000 rows as its restriction.

  For node `n` and output column `o`
      dense[n, o] = Σ_k max( (Σ_f A[n, f]·WL[f, k] + Σ_f X[n, f]·WR[f, k]) + BL[k], 0 ) · WO[k, o] + BO[o],
  `A` the aggregated neighbour means, `X` the node features, the weights as the kernel is handed them (features by
  hidden units, hidden units by outputs).  Point `T` of the grid works on rows `2000·T … 2000·T + 1999` of `A` and `X`
  and on the whole of the weights and biases, so what it computes is rows `2000·T …` of `dense`.
-/
import proofs.«181882_j68917045231738_1_alg».proof.Proof.BlockValue

noncomputable section

open scoped BigOperators

namespace Cert.KernelIdeal.Dense

open Cert.KernelIdeal Cert.KernelIdeal.Gen Cert.KernelIdeal.Block Idealize.ShloMosaic Idealize.ShloMosaic.ValueIdx

/-- Entry `(n, o)` of the dense stage over the whole arrays. -/
def denseAt (A X : Vec Ideal S100000x128 .f32) (WL WR : Vec Ideal S128x64 .f32) (BL : Vec Ideal S64 .f32)
    (WO : Vec Ideal S64x300 .f32) (BO : Vec Ideal S300 .f32) (n : Fin 100000) (o : Fin 300) : EReal :=
  (∑ k : Fin 64, max (((∑ f : Fin 128, A (ix2 n f) * WL (ix2 f k)) + (∑ f : Fin 128, X (ix2 n f) * WR (ix2 f k))) + BL (ix1 k))
      (Ideal.ofBits .f32 0x00000000#32) * WO (ix2 k o)) + BO (ix1 o)

/-- The dense stage's result array: 100000 nodes by 300 outputs. -/
def dense (A X : Vec Ideal S100000x128 .f32) (WL WR : Vec Ideal S128x64 .f32) (BL : Vec Ideal S64 .f32)
    (WO : Vec Ideal S64x300 .f32) (BO : Vec Ideal S300 .f32) : Vec Ideal S100000x300 .f32 :=
  fun i => denseAt A X WL WR BL WO BO (i 0) (i 1)

/-- Row `p` of block `T` is row `2000·T + p` of the array; there are 50 blocks. -/
theorem row_lt {T : Nat} (hT : T < 50) (p : Fin 2000) : 2000 * T + p.val < 100000 := by
  have := p.isLt; omega

/-- That row, as an index of the 100000 nodes. -/
abbrev rowOf (T : Nat) (hT : T < 50) (p : Fin 2000) : Fin 100000 := ⟨2000 * T + p.val, row_lt hT p⟩

/-- A BLOCK IS ITS ROWS OF `dense`: if the two row blocks are rows `2000·T …` of `A` and `X` and the resident blocks are
    the whole weights and biases, the body's result at `j` is `dense` at row `2000·T + j₀`, column `j₁`. -/
theorem block_eq_dense (A X : Vec Ideal S100000x128 .f32) (WL WR : Vec Ideal S128x64 .f32) (BL : Vec Ideal S64 .f32)
    (WO : Vec Ideal S64x300 .f32) (BO : Vec Ideal S300 .f32)
    (a x : Vec Ideal S2000x128 .f32) (wl wr : Vec Ideal S128x64 .f32) (bl : Vec Ideal S64 .f32)
    (wo : Vec Ideal S64x300 .f32) (bo : Vec Ideal S300 .f32) (T : Nat) (hT : T < 50)
    (ha : ∀ (p : Fin 2000) (f : Fin 128), a (ix2 p f) = A (ix2 (rowOf T hT p) f))
    (hx : ∀ (p : Fin 2000) (f : Fin 128), x (ix2 p f) = X (ix2 (rowOf T hT p) f))
    (hwl : ∀ (f : Fin 128) (k : Fin 64), wl (ix2 f k) = WL (ix2 f k))
    (hwr : ∀ (f : Fin 128) (k : Fin 64), wr (ix2 f k) = WR (ix2 f k))
    (hbl : ∀ k : Fin 64, bl (ix1 k) = BL (ix1 k))
    (hwo : ∀ (k : Fin 64) (q : Fin 300), wo (ix2 k q) = WO (ix2 k q))
    (hbo : ∀ q : Fin 300, bo (ix1 q) = BO (ix1 q)) (j : S2000x300.Idx) :
    k0_pay1 (F := Ideal) a x wl wr bl wo bo j = denseAt A X WL WR BL WO BO (rowOf T hT (j 0)) (j 1) := by
  obtain ⟨p, q, rfl⟩ : ∃ (p : Fin 2000) (q : Fin 300), j = ix2 p q := ⟨j 0, j 1, eq_ix2 j⟩
  rw [block_apply]
  unfold denseAt hid
  simp only [ha, hx, hwl, hwr, hbl, hwo, hbo]

end Cert.KernelIdeal.Dense

end
-- ==== Proof.KernelArray.lean ====
/-
  The dense stage's result array after the run: every point writes back its 2000 rows of `dense`, and the 50 points'
  blocks tile the 100000 rows, so the array ends as `dense` of the arrays the region finds.

  The block reads and the equation for one point are stated for ARBITRARY arrays: what a window's block holds is a
  matter of the window's index map alone, whatever its array contains.
-/
import proofs.«181882_j68917045231738_1_alg».proof.Proof.Gen.KernelIdeal.Frame
import proofs.«181882_j68917045231738_1_alg».proof.Proof.DenseArray

set_option maxRecDepth 16384

noncomputable section

open scoped BigOperators

namespace Cert.KernelIdeal.Dense

open Cert.KernelIdeal Cert.KernelIdeal.Gen Cert.KernelIdeal.Block Idealize.ShloMosaic Idealize.ShloMosaic.TcCoe
  Idealize.ShloMosaic.ValueIdx Idealize.SL.Sem
open Idealize.ShloMosaic.Pipeline (Dat)

theorem zeroOff2 : (![0, 0] : Fin 2 → Nat) = fun _ => 0 := funext fun a => by fin_cases a <;> rfl
theorem zeroOff1 : (![0] : Fin 1 → Nat) = fun _ => 0 := funext fun a => by fin_cases a <;> rfl

/-- The printed index maps over the 50 points: the two row-blocked inputs and the output sit at block row `t`, block
    column 0; the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem point_lt (t : Fin cfg0.N) : t.val < 50 := Nat.lt_of_lt_of_eq t.isLt N_0

/-! ## Each window's block at a point, read off ANY array of the window's shape -/

abbrev rd0 (A : Vec Ideal S100000x128 .f32) (t : Fin cfg0.N) : Vec Ideal S2000x128 .f32 := ((cfg0.win 0).blk t).view.read (Elt Ideal) A
abbrev rd1 (A : Vec Ideal S100000x128 .f32) (t : Fin cfg0.N) : Vec Ideal S2000x128 .f32 := ((cfg0.win 1).blk t).view.read (Elt Ideal) A
abbrev rd2 (A : Vec Ideal S128x64 .f32) (t : Fin cfg0.N) : Vec Ideal S128x64 .f32 := ((cfg0.win 2).blk t).view.read (Elt Ideal) A
abbrev rd3 (A : Vec Ideal S64 .f32) (t : Fin cfg0.N) : Vec Ideal S64 .f32 := ((cfg0.win 3).blk t).view.read (Elt Ideal) A
abbrev rd4 (A : Vec Ideal S128x64 .f32) (t : Fin cfg0.N) : Vec Ideal S128x64 .f32 := ((cfg0.win 4).blk t).view.read (Elt Ideal) A
abbrev rd5 (A : Vec Ideal S64x300 .f32) (t : Fin cfg0.N) : Vec Ideal S64x300 .f32 := ((cfg0.win 5).blk t).view.read (Elt Ideal) A
abbrev rd6 (A : Vec Ideal S300 .f32) (t : Fin cfg0.N) : Vec Ideal S300 .f32 := ((cfg0.win 6).blk t).view.read (Elt Ideal) A

/-- The first row-blocked window at point `t` holds rows `2000·t …` of its array. -/
theorem rd0_apply (A : Vec Ideal S100000x128 .f32) (t : Fin cfg0.N) (p : Fin 2000) (f : Fin 128) :
    rd0 A t (ix2 p f) = A (ix2 (rowOf t.val (point_lt t) p) f) := by
  obtain ⟨e00, e01, -⟩ := idx_facts t
  show A (((cfg0.win 0).blk t).view.emb (ix2 p f)) = A _
  refine congrArg A (funext fun a => Fin.ext ?_)
  match a with
  | ⟨0, _⟩ => show win0_0.index t (0 : Fin 2) * 2000 + 1 * p.val = 2000 * t.val + p.val; rw [e00]; omega
  | ⟨1, _⟩ => show win0_0.index t (1 : Fin 2) * 128 + 1 * f.val = f.val; rw [e01]; omega

/-- So does the second. -/
theorem rd1_apply (A : Vec Ideal S100000x128 .f32) (t : Fin cfg0.N) (p : Fin 2000) (f : Fin 128) :
    rd1 A t (ix2 p f) = A (ix2 (rowOf t.val (point_lt t) p) f) := by
  obtain ⟨-, -, e10, e11, -⟩ := idx_facts t
  show A (((cfg0.win 1).blk t).view.emb (ix2 p f)) = A _
  refine congrArg A (funext fun a => Fin.ext ?_)
  match a with
  | ⟨0, _⟩ => show win0_1.index t (0 : Fin 2) * 2000 + 1 * p.val = 2000 * t.val + p.val; rw [e10]; omega
  | ⟨1, _⟩ => show win0_1.index t (1 : Fin 2) * 128 + 1 * f.val = f.val; rw [e11]; omega

/-- A resident window's block is its whole array. -/
theorem rd2_apply (A : Vec Ideal S128x64 .f32) (t : Fin cfg0.N) (f : Fin 128) (k : Fin 64) : rd2 A t (ix2 f k) = A (ix2 f k) := by
  obtain ⟨-, -, -, -, e20, e21, -⟩ := idx_facts t
  show A (((cfg0.win 2).blk t).view.emb (ix2 f k)) = A _
  refine congrArg A (funext fun a => Fin.ext ?_)
  match a with
  | ⟨0, _⟩ => show win0_2.index t (0 : Fin 2) * 128 + 1 * f.val = f.val; rw [e20]; omega
  | ⟨1, _⟩ => show win0_2.index t (1 : Fin 2) * 64 + 1 * k.val = k.val; rw [e21]; omega

theorem rd3_apply (A : Vec Ideal S64 .f32) (t : Fin cfg0.N) (k : Fin 64) : rd3 A t (ix1 k) = A (ix1 k) := by
  obtain ⟨-, -, -, -, -, -, e30, -⟩ := idx_facts t
  show A (((cfg0.win 3).blk t).view.emb (ix1 k)) = A _
  refine congrArg A (funext fun a => Fin.ext ?_)
  match a with
  | ⟨0, _⟩ => show win0_3.index t (0 : Fin 1) * 64 + 1 * k.val = k.val; rw [e30]; omega

theorem rd4_apply (A : Vec Ideal S128x64 .f32) (t : Fin cfg0.N) (f : Fin 128) (k : Fin 64) : rd4 A t (ix2 f k) = A (ix2 f k) := by
  obtain ⟨-, -, -, -, -, -, -, e40, e41, -⟩ := idx_facts t
  show A (((cfg0.win 4).blk t).view.emb (ix2 f k)) = A _
  refine congrArg A (funext fun a => Fin.ext ?_)
  match a with
  | ⟨0, _⟩ => show win0_4.index t (0 : Fin 2) * 128 + 1 * f.val = f.val; rw [e40]; omega
  | ⟨1, _⟩ => show win0_4.index t (1 : Fin 2) * 64 + 1 * k.val = k.val; rw [e41]; omega

theorem rd5_apply (A : Vec Ideal S64x300 .f32) (t : Fin cfg0.N) (k : Fin 64) (q : Fin 300) : rd5 A t (ix2 k q) = A (ix2 k q) := by
  obtain ⟨-, -, -, -, -, -, -, -, -, e50, e51, -⟩ := idx_facts t
  show A (((cfg0.win 5).blk t).view.emb (ix2 k q)) = A _
  refine congrArg A (funext fun a => Fin.ext ?_)
  match a with
  | ⟨0, _⟩ => show win0_5.index t (0 : Fin 2) * 64 + 1 * k.val = k.val; rw [e50]; omega
  | ⟨1, _⟩ => show win0_5.index t (1 : Fin 2) * 300 + 1 * q.val = q.val; rw [e51]; omega

theorem rd6_apply (A : Vec Ideal S300 .f32) (t : Fin cfg0.N) (q : Fin 300) : rd6 A t (ix1 q) = A (ix1 q) := by
  obtain ⟨-, -, -, -, -, -, -, -, -, -, -, e60, -⟩ := idx_facts t
  show A (((cfg0.win 6).blk t).view.emb (ix1 q)) = A _
  refine congrArg A (funext fun a => Fin.ext ?_)
  match a with
  | ⟨0, _⟩ => show win0_6.index t (0 : Fin 1) * 300 + 1 * q.val = q.val; rw [e60]; omega

/-- ONE POINT: the body on the seven blocks at point `t` gives, at `j`, `dense` of the arrays at the place of the
    output's block `t` that `j` names. -/
theorem point_eq (A X : Vec Ideal S100000x128 .f32) (WL WR : Vec Ideal S128x64 .f32) (BL : Vec Ideal S64 .f32)
    (WO : Vec Ideal S64x300 .f32) (BO : Vec Ideal S300 .f32) (t : Fin cfg0.N) (j : S2000x300.Idx) :
    k0_pay1 (F := Ideal) (rd0 A t) (rd1 X t) (rd2 WL t) (rd4 WR t) (rd3 BL t) (rd5 WO t) (rd6 BO t) j
      = dense A X WL WR BL WO BO (((cfg0.win 7).blk t).view.emb j) := by
  obtain ⟨-, -, -, -, -, -, -, -, -, -, -, -, e70, e71⟩ := idx_facts t
  refine (block_eq_dense A X WL WR BL WO BO (rd0 A t) (rd1 X t) (rd2 WL t) (rd4 WR t) (rd3 BL t) (rd5 WO t) (rd6 BO t) t.val (point_lt t)
    (rd0_apply A t) (rd1_apply X t) (rd2_apply WL t) (rd4_apply WR t) (rd3_apply BL t) (rd5_apply WO t) (rd6_apply BO t) j).trans ?_
  unfold dense
  refine congrArg₂ (denseAt A X WL WR BL WO BO) (Fin.ext ?_) (Fin.ext ?_)
  · show 2000 * t.val + (j 0).val = win0_7.index t (0 : Fin 2) * 2000 + 1 * (j 0).val
    rw [e70]; omega
  · show (j 1).val = win0_7.index t (1 : Fin 2) * 300 + 1 * (j 1).val
    rw [e71]; omega

/-- The output window's block at point `t`, read off ANY array `D` of the result's shape, holds `D` at the places of the
    block (no block of this window overhangs the array, so the part a write-back moves is the whole block). -/
theorem blk7_read (D : Vec Ideal S100000x300 .f32) (t : Fin cfg0.N) (j : ((cfg0.win 7).xblock (grid0.coords t)).Idx) :
    D (((cfg0.win 7).blk t).view.emb ((cfg0.win 7).xinj (grid0.coords t) j)) = ((cfg0.win 7).blk t).view.read (Elt Ideal) D j := rfl

/-- An index of the result array is in point `t`'s block iff each coordinate is in the block's range on its axis. -/
theorem mem_blk (t : Fin cfg0.N) (i : S100000x300.Idx) :
    i ∈ ((cfg0.win 7).blk t).view.set ↔ ∀ a : Fin 2, win0_7.index t a * S2000x300.size a ≤ (i a).val ∧ (i a).val < win0_7.index t a * S2000x300.size a + S2000x300.size a := by
  show i ∈ ((View.whole main_v26).slice (win0_7.rect t)).set ↔ _
  rw [View.set_slice_whole, Rect.mem_set_unit]
  exact Iff.rfl

/-- Row `n` lies in the block of point `n / 2000`: the blocks tile the array. -/
theorem cover (i : S100000x300.Idx) : ∃ t : Fin cfg0.N, (cfg0.win 7).flush t = true ∧ i ∈ ((cfg0.win 7).blk t).view.set := by
  have hi0 : (i 0).val < 100000 := (i 0).isLt
  have hi1 : (i 1).val < 300 := (i 1).isLt
  have hN : (i 0).val / 2000 < cfg0.N := by rw [show cfg0.N = 50 from N_0]; omega
  refine ⟨⟨(i 0).val / 2000, hN⟩, flush0_7 _, ?_⟩
  rw [mem_blk]
  obtain ⟨-, -, -, -, -, -, -, -, -, -, -, -, e70, e71⟩ := idx_facts ⟨(i 0).val / 2000, hN⟩
  have e70' : win0_7.index ⟨(i 0).val / 2000, hN⟩ (0 : Fin 2) = (i 0).val / 2000 := e70
  intro a
  match a with
  | ⟨0, _⟩ =>
    show win0_7.index ⟨(i 0).val / 2000, hN⟩ (0 : Fin 2) * 2000 ≤ (i 0).val ∧ (i 0).val < win0_7.index ⟨(i 0).val / 2000, hN⟩ (0 : Fin 2) * 2000 + 2000
    rw [e70']; omega
  | ⟨1, _⟩ =>
    show win0_7.index ⟨(i 0).val / 2000, hN⟩ (1 : Fin 2) * 300 ≤ (i 1).val ∧ (i 1).val < win0_7.index ⟨(i 0).val / 2000, hN⟩ (1 : Fin 2) * 300 + 300
    rw [e71]; omega

/-! ## The result array of the run -/

variable (m : (ℓ : Loc nD τ sig) → Buf (Elt Ideal) ℓ)

/-- `dense` of the arrays as the region finds them. -/
def denseArr (c : Dev nD) : Vec Ideal S100000x300 .f32 :=
  dense (V m c main_v22) (V m c main_arg0) (V m c main_v23) (V m c main_v24) (V m c main_arg3) (V m c main_v25) (V m c main_arg6)

/-- WHAT POINT `t` WRITES BACK is block `t` of `denseArr`. -/
theorem flushed_eq (c : Dev nD) (t : Fin cfg0.N) :
    (dats m 0 c).flushed 7 t = ((cfg0.win 7).blk t).view.read (Elt Ideal) (denseArr m c) := by
  show (cfg0.win 7).cut (grid0.coords t) ((dats m 0 c).after 7 t) = _
  rw [after0_7]
  unfold out0_7
  rw [View.canon_unit_zero zeroOff2]
  simp only [View.ld_unit_zero (S := S2000x128) zeroOff2, View.ld_unit_zero (S := S128x64) zeroOff2,
    View.ld_unit_zero (S := S64) zeroOff1, View.ld_unit_zero (S := S64x300) zeroOff2, View.ld_unit_zero (S := S300) zeroOff1]
  funext j
  refine (point_eq (V m c main_v22) (V m c main_arg0) (V m c main_v23) (V m c main_v24) (V m c main_arg3) (V m c main_v25) (V m c main_arg6) t
    ((cfg0.win 7).xinj (grid0.coords t) j)).trans ?_
  exact blk7_read (denseArr m c) t j

/-- THE ARRAY after the run is `denseArr`. -/
theorem final (c : Dev nD) : (dats m 0 c).arrAt 7 cfg0.N = denseArr m c :=
  (dats m 0 c).arrAt_eq_of_cover 7 (denseArr m c) (fun t _ => flushed_eq m c t) cover

end Cert.KernelIdeal.Dense

end
-- ==== Proof.HostPrefix.lean ====
/-
  What the host computes around the region.

  BEFORE it: the mean of each node's in-neighbours' feature rows — the rows gathered at the edges' sources (a negative
  source index counted from the end), summed into the edges' destinations, and divided by the number of edges into each
  node, at least 1 — and the three weight matrices transposed, so that the region multiplies rows by columns.
  AFTER it: the 100000 × 300 result laid out again, in the same row-major order, as 300000 × 100.
-/
import proofs.«181882_j68917045231738_1_alg».proof.Proof.KernelArray
import Idealize.ShloMosaic.Lib.StableHlo.Run

set_option maxRecDepth 16384

noncomputable section

open scoped BigOperators

namespace Cert.KernelIdeal.Dense

open Cert.KernelIdeal Cert.KernelIdeal.Gen Idealize.ShloMosaic Idealize.ShloMosaic.TcCoe
  Idealize.ShloMosaic.ValueIdx Idealize.SL.Sem Idealize.ShloMosaic.StableHlo

/-- Row `r` of the 2 × 1600000 edge list as a vector of 1600000 node indices. -/
abbrev edgeRow0 (E : IVec S2x1600000 32) : IVec S1600000 32 :=
  shapeCast _ (extractStridedSlice S1x1600000 ![0, 0] E slices_S2x1600000_S1x1600000_0_0) shapeCasts_S1x1600000_S1600000
abbrev edgeRow1 (E : IVec S2x1600000 32) : IVec S1600000 32 :=
  shapeCast _ (extractStridedSlice S1x1600000 ![1, 0] E slices_S2x1600000_S1x1600000_1_0) shapeCasts_S1x1600000_S1600000

/-- THE NEIGHBOUR MEAN of the feature rows `X` along the edges `E`: sources in row 0 (100000 added to a negative one),
    destinations in row 1; the gathered rows summed per destination, over the per-destination edge count or 1. -/
def nbrMean (X : FVec Ideal S100000x128 .f32) (E : IVec S2x1600000 32) : FVec Ideal S100000x128 .f32 :=
  Host.divf (F := Ideal)
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (edgeRow1 E))
      (Host.gather gather_S100000x128_S1600000x1_S1600000x128_1_0_n_n_0_1_1128 X
        (broadcastInDim S1600000x1 ![0] bcast_S1600000_S1600000x1_0
          (select (cmpi .slt (edgeRow0 E) (broadcastInDim S1600000 ![] bcast_S_S1600000 (constantI S_ 32 0#32)))
            (addi (edgeRow0 E) (broadcastInDim S1600000 ![] bcast_S_S1600000 (constantI S_ 32 100000#32)))
            (edgeRow0 E)))))
    (broadcastInDim S100000x128 ![0, 1] bcast_S100000x1_S100000x128_0_1
      (broadcastInDim S100000x1 ![0] bcast_S100000_S100000x1_0
        (maximumf (F := Ideal)
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 (edgeRow1 E))
            (broadcastInDim S1600000 ![] bcast_S_S1600000 (constant (F := Ideal) S_ .f32 0x3F800000#32)))
          (broadcastInDim S100000 ![] bcast_S_S100000 (constant (F := Ideal) S_ .f32 0x3F800000#32)))))

variable (m : (ℓ : Loc nD τ sig) → Buf (Elt Ideal) ℓ)

set_option maxHeartbeats 2000000 in
/-- The region finds the neighbour mean of the launched features along the launched edges in its first window's array. -/
theorem V_mean (c : Dev nD) :
    V m c main_v22 = nbrMean (m ((c : Thread nD τ).loc main_arg0)) (m ((c : Thread nD τ).loc main_arg1)) := by
  show StableHlo.after hostOps0 (fun b => m (c, b)) (Proc.devRef .tc main_v22) = _
  after_results
  rfl

set_option maxHeartbeats 2000000 in
/-- The aggregation weights, transposed. -/
theorem V_wl (c : Dev nD) :
    V m c main_v23 = transpose S128x64 [1, 0] (m ((c : Thread nD τ).loc main_arg2)) transposes_S64x128_S128x64_1_0 := by
  show StableHlo.after hostOps0 (fun b => m (c, b)) (Proc.devRef .tc main_v23) = _
  after_results

set_option maxHeartbeats 2000000 in
/-- The root weights, transposed. -/
theorem V_wr (c : Dev nD) :
    V m c main_v24 = transpose S128x64 [1, 0] (m ((c : Thread nD τ).loc main_arg4)) transposes_S64x128_S128x64_1_0 := by
  show StableHlo.after hostOps0 (fun b => m (c, b)) (Proc.devRef .tc main_v24) = _
  after_results

set_option maxHeartbeats 2000000 in
/-- The output weights, transposed. -/
theorem V_wo (c : Dev nD) :
    V m c main_v25 = transpose S64x300 [1, 0] (m ((c : Thread nD τ).loc main_arg5)) transposes_S300x64_S64x300_1_0 := by
  show StableHlo.after hostOps0 (fun b => m (c, b)) (Proc.devRef .tc main_v25) = _
  after_results

/-! ## The whole kernel as one function of the launched arrays -/

/-- The kernel's dense stage on the launched arrays: `dense` of the neighbour mean, the features, the transposed weights
    and the biases. -/
def sageOf (X : FVec Ideal S100000x128 .f32) (E : IVec S2x1600000 32) (WL : FVec Ideal S64x128 .f32) (BL : FVec Ideal S64 .f32)
    (WR : FVec Ideal S64x128 .f32) (WO : FVec Ideal S300x64 .f32) (BO : FVec Ideal S300 .f32) : FVec Ideal S100000x300 .f32 :=
  dense (nbrMean X E) X (transpose S128x64 [1, 0] WL transposes_S64x128_S128x64_1_0) (transpose S128x64 [1, 0] WR transposes_S64x128_S128x64_1_0)
    BL (transpose S64x300 [1, 0] WO transposes_S300x64_S64x300_1_0) BO

/-- Its entry `(n, o)` over the weights as launched (hidden units by features, outputs by hidden units): a transposed
    matrix read at `(f, k)` is the matrix at `(k, f)`. -/
theorem sageOf_apply (X : FVec Ideal S100000x128 .f32) (E : IVec S2x1600000 32) (WL : FVec Ideal S64x128 .f32) (BL : FVec Ideal S64 .f32)
    (WR : FVec Ideal S64x128 .f32) (WO : FVec Ideal S300x64 .f32) (BO : FVec Ideal S300 .f32) (n : Fin 100000) (o : Fin 300) :
    sageOf X E WL BL WR WO BO (ix2 n o)
      = (∑ k : Fin 64, max (((∑ f : Fin 128, nbrMean X E (ix2 n f) * WL (ix2 k f)) + (∑ f : Fin 128, X (ix2 n f) * WR (ix2 k f))) + BL (ix1 k))
          (Ideal.ofBits .f32 0x00000000#32) * WO (ix2 o k)) + BO (ix1 o) := by
  have hWL : ∀ (f : Fin 128) (k : Fin 64), transpose S128x64 [1, 0] WL transposes_S64x128_S128x64_1_0 (ix2 f k) = WL (ix2 k f) :=
    fun f k => transpose_ix2_apply WL _ f k
  have hWR : ∀ (f : Fin 128) (k : Fin 64), transpose S128x64 [1, 0] WR transposes_S64x128_S128x64_1_0 (ix2 f k) = WR (ix2 k f) :=
    fun f k => transpose_ix2_apply WR _ f k
  have hWO : ∀ (k : Fin 64) (q : Fin 300), transpose S64x300 [1, 0] WO transposes_S300x64_S64x300_1_0 (ix2 k q) = WO (ix2 q k) :=
    fun k q => transpose_ix2_apply WO _ k q
  show denseAt _ _ _ _ _ _ _ n o = _
  unfold denseAt
  simp only [hWL, hWR, hWO]

/-- The result array of the run is `sageOf` of the launched arrays. -/
theorem denseArr_eq (c : Dev nD) :
    denseArr m c = sageOf (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold denseArr sageOf
  rw [V_mean, V_wl, V_wr, V_wo, V_main_arg0, V_main_arg3, V_main_arg6]

end Cert.KernelIdeal.Dense

end
-- ==== Proof.KernelRun.lean ====
/-
  The kernel's run, read: @main ends with its result at the row-major re-laying, as 300000 × 100, of the dense stage
  of the launched arrays, and with its arguments as launched.
-/
import proofs.«181882_j68917045231738_1_alg».proof.Proof.HostPrefix

set_option maxRecDepth 16384

noncomputable section

namespace Cert.KernelIdeal.Dense

open Cert.KernelIdeal Cert.KernelIdeal.Gen Idealize.ShloMosaic Idealize.ShloMosaic.TcCoe
  Idealize.ShloMosaic.ValueIdx Idealize.SL.Sem Idealize.ShloMosaic.StableHlo

variable (m : (ℓ : Loc nD τ sig) → Buf (Elt Ideal) ℓ) (ρ : Dev nD → PrngReg)

/-- The kernel's result as a function of the launched arrays. -/
def resultOf (X : FVec Ideal S100000x128 .f32) (E : IVec S2x1600000 32) (WL : FVec Ideal S64x128 .f32) (BL : FVec Ideal S64 .f32)
    (WR : FVec Ideal S64x128 .f32) (WO : FVec Ideal S300x64 .f32) (BO : FVec Ideal S300 .f32) : FVec Ideal S300000x100 .f32 :=
  shapeCast S300000x100 (sageOf X E WL BL WR WO BO) shapeCasts_S100000x300_S300000x100

/-- After the region the host re-lays the region's array; nothing else touches the result. -/
theorem tail_eq (c : Dev nD) :
    Pipeline.afterTail₀ cfgs (dats m) 0 (V0 m) [hostOps1] c main_v27
      = resultOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v27) = _
  after_results
  rw [show Pipeline.withArrays (cfgs 0).spec c (V0 m c) (fun w => (dats m 0 c).arrAt w (cfgs 0).N) (Proc.devRef .tc main_v26) = denseArr m c from
    (Pipeline.withArrays_arr spec0 launch0.win.arr_inj c (V0 m c) (fun w => (dats m 0 c).arrAt w (cfgs 0).N) 7).trans (final m c), denseArr_eq]
  rfl

/-- THE KERNEL'S RUN: every weakly fair execution of @main ends with the result at `resultOf` of the launched arrays — the
    result buffer is no array of the region, so it holds what the lines after the region leave in it — and with each
    argument as launched: a staged one is never written back, the others are no array of the region and no later line writes them. -/
theorem run : θ_run defs (onTc (τ := τ) (main (F := Ideal))) ⟨m, fun _ => 0, ρ⟩ fun r => ∀ c : Dev nD,
      r.2.mem ((c.tc : Thread nD τ).loc main_v27)
        = resultOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v27 (Pipeline.mem_restRefs_of main_v27 (by decide) (by decide))).trans (tail_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.Dense

end
-- ==== Proof.RefValue.lean ====
/-
  The reference's result is the kernel's function of the arguments.

  Both programs form the neighbour mean by the same host operations.  The reference then contracts the mean and the
  features against the weights AS LAUNCHED (hidden units by features), adds the bias BEFORE the root term, cuts off below at
  zero, contracts against the output weights (outputs by hidden units) and adds the output bias; the kernel contracts
  against the transposed weights and adds the bias AFTER the root term.  Entry by entry the two are the same extended real:
  a transposed matrix read at `(f, k)` is the matrix at `(k, f)`, and `(a + b) + c = (a + c) + b` holds in any commutative
  additive monoid, the extended reals included — no entry need be finite.
-/
import proofs.«181882_j68917045231738_1_alg».proof.Proof.Gen.ReferenceIdeal.Read
import proofs.«181882_j68917045231738_1_alg».proof.Proof.KernelRun

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.KernelIdeal.Dense (nbrMean sageOf sageOf_apply resultOf)

/-- The reference's mean stage is the kernel's neighbour mean: the same operations on the same operands. -/
theorem mean_eq (x0 : FVec Ideal S100000x128 .f32) (x1 : IVec S2x1600000 32) : val_main_v22 (F := Ideal) x0 x1 = nbrMean x0 x1 := rfl

/-- The reference's hidden activation of node `n`, unit `k`. -/
theorem hidden_apply (x0 : FVec Ideal S100000x128 .f32) (x1 : IVec S2x1600000 32) (x2 : FVec Ideal S64x128 .f32) (x3 : FVec Ideal S64 .f32)
    (x4 : FVec Ideal S64x128 .f32) (n : Fin 100000) (k : Fin 64) :
    val_main_v29 (F := Ideal) x0 x1 x2 x3 x4 (ix2 n k)
      = max (((∑ f : Fin 128, nbrMean x0 x1 (ix2 n f) * x2 (ix2 k f)) + x3 (ix1 k)) + (∑ f : Fin 128, x0 (ix2 n f) * x4 (ix2 k f)))
          (Ideal.ofBits .f32 0x00000000#32) := by
  have h1 : ∀ f : Fin 128, lidx_main_v23 (ix2 n k) f = ix2 n f := fun f => funext fun a => by
    match a with
    | ⟨0, _⟩ => rfl
    | ⟨1, _⟩ => rfl
  have h2 : ∀ f : Fin 128, ridx_main_v23 (ix2 n k) f = ix2 k f := fun f => funext fun a => by
    match a with
    | ⟨0, _⟩ => rfl
    | ⟨1, _⟩ => rfl
  have h3 : ∀ f : Fin 128, lidx_main_v27 (ix2 n k) f = ix2 n f := fun f => funext fun a => by
    match a with
    | ⟨0, _⟩ => rfl
    | ⟨1, _⟩ => rfl
  have h4 : ∀ f : Fin 128, ridx_main_v27 (ix2 n k) f = ix2 k f := fun f => funext fun a => by
    match a with
    | ⟨0, _⟩ => rfl
    | ⟨1, _⟩ => rfl
  have h5 : idx_main_v24 (idx_main_v25 (ix2 n k)) = ix1 k := funext fun a => by
    match a with
    | ⟨0, _⟩ => rfl
  rw [val_main_v29_apply, val_main_v28_apply, val_main_v26_apply, val_main_v23_apply, val_main_v25_apply, val_main_v24_apply,
    val_main_v27_apply, val_main_call0_v0_apply, val_main_call0_cst_apply]
  simp only [h1, h2, h3, h4, h5, mean_eq]
  rfl

/-- The reference's output for node `n`, column `o`. -/
theorem out_apply (x0 : FVec Ideal S100000x128 .f32) (x1 : IVec S2x1600000 32) (x2 : FVec Ideal S64x128 .f32) (x3 : FVec Ideal S64 .f32)
    (x4 : FVec Ideal S64x128 .f32) (x5 : FVec Ideal S300x64 .f32) (x6 : FVec Ideal S300 .f32) (n : Fin 100000) (o : Fin 300) :
    val_main_v33 (F := Ideal) x0 x1 x2 x3 x4 x5 x6 (ix2 n o)
      = (∑ k : Fin 64, val_main_v29 (F := Ideal) x0 x1 x2 x3 x4 (ix2 n k) * x5 (ix2 o k)) + x6 (ix1 o) := by
  have h1 : ∀ k : Fin 64, lidx_main_v30 (ix2 n o) k = ix2 n k := fun k => funext fun a => by
    match a with
    | ⟨0, _⟩ => rfl
    | ⟨1, _⟩ => rfl
  have h2 : ∀ k : Fin 64, ridx_main_v30 (ix2 n o) k = ix2 o k := fun k => funext fun a => by
    match a with
    | ⟨0, _⟩ => rfl
    | ⟨1, _⟩ => rfl
  have h3 : idx_main_v31 (idx_main_v32 (ix2 n o)) = ix1 o := funext fun a => by
    match a with
    | ⟨0, _⟩ => rfl
  rw [val_main_v33_apply, val_main_v30_apply, val_main_v32_apply, val_main_v31_apply]
  simp only [h1, h2, h3]
  rfl

/-- THE TWO DENSE STAGES ARE ONE FUNCTION of the arguments. -/
theorem dense_eq (x0 : FVec Ideal S100000x128 .f32) (x1 : IVec S2x1600000 32) (x2 : FVec Ideal S64x128 .f32) (x3 : FVec Ideal S64 .f32)
    (x4 : FVec Ideal S64x128 .f32) (x5 : FVec Ideal S300x64 .f32) (x6 : FVec Ideal S300 .f32) :
    val_main_v33 (F := Ideal) x0 x1 x2 x3 x4 x5 x6 = sageOf x0 x1 x2 x3 x4 x5 x6 := by
  funext i
  obtain ⟨n, o, rfl⟩ : ∃ (n : Fin 100000) (o : Fin 300), i = ix2 n o := ⟨i 0, i 1, eq_ix2 i⟩
  rw [out_apply, sageOf_apply]
  refine congrArg (· + x6 (ix1 o)) (Finset.sum_congr rfl fun k _ => ?_)
  rw [hidden_apply, add_right_comm]

/-- The reference's result is the kernel's: the same re-laying of the same array. -/
theorem result_eq (x0 : FVec Ideal S100000x128 .f32) (x1 : IVec S2x1600000 32) (x2 : FVec Ideal S64x128 .f32) (x3 : FVec Ideal S64 .f32)
    (x4 : FVec Ideal S64x128 .f32) (x5 : FVec Ideal S300x64 .f32) (x6 : FVec Ideal S300 .f32) :
    val_main_v34 (F := Ideal) x0 x1 x2 x3 x4 x5 x6 = resultOf x0 x1 x2 x3 x4 x5 x6 := by
  unfold val_main_v34 resultOf
  rw [dense_eq]

end Cert.ReferenceIdeal.RefValue

end
-- ==== Proof.lean ====
/-
  A GraphSAGE layer with a linear read-out, for 100000 nodes with 128 features and 1600000 edges: the mean of each
  node's in-neighbours' feature rows, a hidden layer of 64 units
      h = max(mean · W_lᵀ + b_l + x · W_rᵀ, 0),
  and 300 outputs  h · W_outᵀ + b_out, re-laid as 300000 rows of 100.

  The kernel forms the mean on the host, transposes the three weight matrices, and runs the dense part in 50 blocks of
  2000 nodes; the reference is the same formula with the bias added before the root term and the weights contracted as
  they are.  Over the extended reals both are the same function of the arguments, entry by entry: the changes of float
  format are the identity, a matrix product into a zero accumulator is the plain sum of products, a transposed matrix read at
  `(f, k)` is the matrix at `(k, f)`, and `(a + b) + c = (a + c) + b` (no finiteness is used).

  The modules: `BlockValue` (one block, entry by entry), `DenseArray` (the dense stage as one function of the whole arrays;
  a block is its rows), `KernelArray` (what a point writes back; the blocks tile the array), `HostPrefix` (the mean and the
  transposes the region finds), `KernelRun` (the re-laying after the region; the kernel's run), `RefValue` (the reference's
  stages read at an index; the two results are one function).
-/
import proofs.«181882_j68917045231738_1_alg».proof.Defs
import proofs.«181882_j68917045231738_1_alg».proof.Proof.Gen.Kernel
import proofs.«181882_j68917045231738_1_alg».proof.Proof.Gen.Kernel.Skeleton
import proofs.«181882_j68917045231738_1_alg».proof.Proof.Gen.Kernel.Launch
import proofs.«181882_j68917045231738_1_alg».proof.Proof.Gen.Kernel.Points
import proofs.«181882_j68917045231738_1_alg».proof.Proof.Gen.Kernel.Frame
import proofs.«181882_j68917045231738_1_alg».proof.Proof.Gen.KernelIdeal
import proofs.«181882_j68917045231738_1_alg».proof.Proof.Gen.KernelIdeal.Skeleton
import proofs.«181882_j68917045231738_1_alg».proof.Proof.Gen.KernelIdeal.Launch
import proofs.«181882_j68917045231738_1_alg».proof.Proof.Gen.KernelIdeal.Points
import proofs.«181882_j68917045231738_1_alg».proof.Proof.Gen.KernelIdeal.Frame
import proofs.«181882_j68917045231738_1_alg».proof.Proof.Gen.ReferenceIdeal
import proofs.«181882_j68917045231738_1_alg».proof.Proof.Gen.ReferenceIdeal.Run
import proofs.«181882_j68917045231738_1_alg».proof.Proof.Gen.ReferenceIdeal.Read
import proofs.«181882_j68917045231738_1_alg».proof.Proof.Gen.Pre_finite_inputs
import proofs.«181882_j68917045231738_1_alg».proof.Proof.KernelRun
import proofs.«181882_j68917045231738_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the same result: the kernel's run ends at
    `resultOf` of its arguments, the reference's at its last stage of its own, which is `resultOf` of them too, and the
    arguments agree. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq,
    (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
